-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2048 : Shape := ⟨3, ![8, 4096, 2048]⟩
abbrev S2048 : Shape := ⟨1, ![2048]⟩
abbrev S_ : Shape := ⟨0, ![]⟩

class Facts : Prop where
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8x4096x2048 .f32) (main_arg1 : FVec F S2048 .f32) : IVec S_ 1 :=
  let main_v0 : FVec F S8x4096x2048 .f32 := Host.absf main_arg0
  let main_cst : FVec F S_ .f32 := constant S_ .f32 0x7F800000#32
  let main_v1 : FVec F S8x4096x2048 .f32 := broadcastInDim S8x4096x2048 ![] bcast_S_S8x4096x2048 main_cst
  let main_v2 : IVec S8x4096x2048 1 := cmpf .olt main_v0 main_v1
  let main_c : IVec S_ 1 := constantI S_ 1 1#1
  let main_v3 : IVec S_ 1 := (fun x v => Host.reduce IntOp.andi x v reducesTo_S8x4096x2048_S_d0_1_2 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  main_v8
-- ==== Kernel.lean ====
abbrev S8x4096x2048 : Shape := ⟨3, ![8, 4096, 2048]⟩
abbrev S2048 : Shape := ⟨1, ![2048]⟩
abbrev S32768x2048 : Shape := ⟨2, ![32768, 2048]⟩
abbrev S1x2048 : Shape := ⟨2, ![1, 2048]⟩
abbrev S512x2048 : Shape := ⟨2, ![512, 2048]⟩

abbrev nBuf : Space → Nat
  | .hbm => 6
  | .vmem => 5
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S32768x2048, .f32⟩
  | .hbm, ⟨3, _⟩ => ⟨S1x2048, .f32⟩
  | .hbm, ⟨4, _⟩ => ⟨S32768x2048, .f32⟩
  | .hbm, ⟨5, _⟩ => ⟨S8x4096x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8x4096x2048_S32768x2048 : S8x4096x2048.ShapeCasts S32768x2048
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S32768x2048_S8x4096x2048 : S32768x2048.ShapeCasts S8x4096x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S32768x2048.size a
  hwx0_0 : ∀ i : grid0.Coords, EltTy.bits .f32 = 32 ∨ (Rect.block (s := S32768x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S32768x2048.size a
  hwx0_2 : ∀ i : grid0.Coords, EltTy.bits .f32 = 32 ∨ (Rect.block (s := S32768x2048) S512x2048.size (cc0_transform_2 i) (hinb0_2 i)).WholeWords (EltTy.packing .f32)

variable [Facts₀]

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x4096x2048 : Shape := ⟨3, ![8, 4096, 2048]⟩
abbrev S2048 : Shape := ⟨1, ![2048]⟩
abbrev S1x1x2048 : Shape := ⟨3, ![1, 1, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S1x1x2048, .f32⟩
  | .hbm, ⟨3, _⟩ => ⟨S8x4096x2048, .f32⟩
  | .hbm, ⟨4, _⟩ => ⟨S8x4096x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S8x4096x2048_0_1_2 : S1x1x2048.BroadcastsInDim S8x4096x2048 (![0, 1, 2] : Fin 3 → Fin S8x4096x2048.rank)

variable [Facts₀]

class Facts : Prop extends Facts₀ where

variable [Facts]
-- ==== Proof.RowScale.lean ====
/-
  The function both programs compute, and the two index facts that join its arrangements.

  For an array `x` over [8, 4096, 2048] and a vector `mask` over [2048] the result at (b, s, d) is
  `x (b, s, d) · mask d`: every feature column `d` is scaled by one number. Nothing is summed and no factor is moved,
  so the equations below hold for any float instance and never ask whether an entry is finite.

  The kernel works on the same data laid out flat: `x` as [32768, 2048] (row `b · 4096 + s`), `mask` as one row
  [1, 2048]. On that layout the result at (r, d) is `xflat (r, d) · mrow (0, d)` (`flatScale`), and a tile of rows
  computes exactly the restriction of this function to its rows (`tile_apply`). Reading the flat result back as
  [8, 4096, 2048] gives the column scaling of the original arrays (`unflatten_flatScale`): the two reshapes preserve the
  row-major position, and (b, s, d) and (b · 4096 + s, d) have the same one, `(b · 4096 + s) · 2048 + d`.
-/
import Idealize.ShloMosaic.Lib.ValueIdx
import Idealize.ShloMosaic.Lib.Pipeline.Value

noncomputable section

namespace Cert.RowScale

open Idealize.ShloMosaic Idealize.ShloMosaic.ValueIdx

variable {F : FTy → Type} [FloatOps F]

/-- The shapes, as literals. -/
abbrev Sx : Shape := ⟨3, ![8, 4096, 2048]⟩
abbrev Sm : Shape := ⟨1, ![2048]⟩
abbrev Sflat : Shape := ⟨2, ![32768, 2048]⟩
abbrev Srow : Shape := ⟨2, ![1, 2048]⟩
abbrev Stile : Shape := ⟨2, ![512, 2048]⟩

/-- Column scaling: entry (b, s, d) of `x` times entry `d` of `mask`. -/
def colScale (x : FVec F Sx .f32) (mask : FVec F Sm .f32) : FVec F Sx .f32 :=
  fun i => FloatOps.mulf (x i) (mask (ix1 (i 2)))

/-- The same on the flat layout: entry (r, d) of the flat array times entry (0, d) of the one-row mask. -/
def flatScale (a : FVec F Sflat .f32) (mrow : FVec F Srow .f32) : FVec F Sflat .f32 :=
  fun j => FloatOps.mulf (a j) (mrow (ix2 0 (j 1)))

/-- A tile of 512 rows times the one-row mask broadcast down the rows, read at (p, q): the tile's entry times the
    mask's entry in column `q`. The two shape casts are between equal shapes and change nothing. -/
theorem tile_apply (v : FVec F Stile .f32) (mrow : FVec F Srow .f32)
    (hv : Stile.ShapeCasts Stile) (hm : Srow.ShapeCasts Srow) (hb : Srow.Broadcasts Stile) (j : Stile.Idx) :
    mulf (shapeCast Stile v hv) (broadcastTo Stile (shapeCast Srow mrow hm) hb) j
      = FloatOps.mulf (v j) (mrow (ix2 0 (j 1))) := by
  show FloatOps.mulf (shapeCast Stile v hv j) (broadcastTo Stile (shapeCast Srow mrow hm) hb j) = _
  rw [shapeCast_self, shapeCast_self,
    broadcastTo_apply mrow hb j (ix2 0 (j 1)) (fun a => match a with
      | ⟨0, _⟩ => by show (0 : Nat) = if (1 : Nat) = 1 then 0 else _; rw [if_pos rfl]
      | ⟨1, _⟩ => by show (j 1).val = if (2048 : Nat) = 1 then 0 else (j 1).val; rw [if_neg (by decide)])]

/-- The flat row of (b, s, ·): `b · 4096 + s`. -/
def flatRow (i : Sx.Idx) : Fin 32768 :=
  ⟨(i 0).val * 4096 + (i 1).val, by
    have h0 : (i 0).val < 8 := (i 0).isLt
    have h1 : (i 1).val < 4096 := (i 1).isLt
    omega⟩

/-- Flatten both arrays, scale on the flat layout, read the result back as [8, 4096, 2048]: the column scaling of the
    original arrays. Index (b, s, d) reads the flat result at (b · 4096 + s, d), which reads `x` back at (b, s, d) and
    the mask row at (0, d), that is `mask` at `d`. -/
theorem unflatten_flatScale (x : FVec F Sx .f32) (mask : FVec F Sm .f32)
    (h0 : Sx.ShapeCasts Sflat) (h1 : Sm.ShapeCasts Srow) (h3 : Sflat.ShapeCasts Sx) :
    shapeCast Sx (flatScale (shapeCast Sflat x h0) (shapeCast Srow mask h1)) h3 = colScale x mask := by
  funext i
  have hpos : (Sflat.rowMajor (ix2 (flatRow i) (i 2))).val = (Sx.rowMajor i).val := by
    rw [Shape.rowMajor_val_two, Shape.rowMajor_val_three]
    show ((i 0).val * 4096 + (i 1).val) * 2048 + (i 2).val = ((i 0).val * 4096 + (i 1).val) * 2048 + (i 2).val
    rfl
  rw [shapeCast_apply _ h3 i (ix2 (flatRow i) (i 2)) hpos]
  unfold flatScale colScale
  rw [shapeCast_apply x h0 (ix2 (flatRow i) (i 2)) i hpos.symm]
  rw [shapeCast_apply mask h1 (ix2 0 (i 2)) (ix1 (i 2)) (by
    rw [Shape.rowMajor_val_one, Shape.rowMajor_val_two]
    show (i 2).val = 0 * 2048 + (i 2).val
    omega)]

end Cert.RowScale

end
-- ==== Proof.Reference.lean ====
/-
  The reference computes the column scaling.

  The reference broadcasts `mask` first to [1, 1, 2048] and then to [8, 4096, 2048] and multiplies `x` by the result,
  entry by entry. Read at (b, s, d) the two broadcasts pick entry `d` of `mask`, so the product there is
  `x (b, s, d) · mask d`: the function `colScale`.
-/
import proofs.«101053_j17540646437457_1_alg».proof.Proof.Gen.ReferenceIdeal.Run
import proofs.«101053_j17540646437457_1_alg».proof.Proof.Gen.ReferenceIdeal.Read
import proofs.«101053_j17540646437457_1_alg».proof.Proof.RowScale

noncomputable section

namespace Cert.ReferenceIdeal.RefValue

open Cert.ReferenceIdeal Idealize.ShloMosaic Idealize.ShloMosaic.ValueIdx Cert.RowScale

variable {F : FTy → Type} [FloatOps F]

/-- The two broadcasts read entry (b, s, d) of the broadcast mask at `mask d`. -/
theorem idx_mask (i : S8x4096x2048.Idx) : Read.idx_main_v0 (Read.idx_main_v1 i) = ix1 (i 2) :=
  funext fun a => Fin.ext (by match a with | ⟨0, _⟩ => rfl)

/-- The reference's product, as a function of its two arguments, is the column scaling. -/
theorem result_eq (x : FVec F Sx .f32) (mask : FVec F Sm .f32) :
    Read.val_main_v2 (F := F) x mask = colScale x mask := by
  funext i
  rw [Read.val_main_v2_apply, Read.val_main_v1_apply, Read.val_main_v0_apply, idx_mask]
  rfl

end Cert.ReferenceIdeal.RefValue

end
-- ==== Proof.KernelValue.lean ====
/-
  What the kernel leaves in its result: the column scaling of its two arguments.

  The program flattens `x` to [32768, 2048] and `mask` to one row [1, 2048], runs the multiply over 64 tiles of 512
  rows, and reads the flat result back as [8, 4096, 2048].
  * Tile `t` holds rows `512 t … 512 t + 511` of the flat array, all 2048 columns; the mask row is the same block at every
    point. The body stores, at (p, q) of the tile, the tile's entry times the mask row's entry in column `q`: the
    restriction of `flatScale` to the tile's rows (`written_eq`).
  * Row `r` of the flat result lies in tile `r / 512`, so the 64 tiles cover it (`covered`) and the flat result is
    `flatScale` of the two flattened arguments (`flat_result`).
  * The reshape after the region reads that array back as [8, 4096, 2048]: by `unflatten_flatScale` the program's result
    is `colScale x mask` (`run`).
-/
import proofs.«101053_j17540646437457_1_alg».proof.Proof.Gen.KernelIdeal.Frame
import proofs.«101053_j17540646437457_1_alg».proof.Proof.RowScale
import Idealize.ShloMosaic.Lib.Pipeline.Value
import Idealize.ShloMosaic.Lib.StableHlo.Run

set_option maxRecDepth 16384

noncomputable section

namespace Cert.KernelIdeal.Scaled

open Cert.KernelIdeal Cert.KernelIdeal.Gen Idealize.ShloMosaic Idealize.ShloMosaic.TcCoe Idealize.ShloMosaic.ValueIdx
open Idealize.SL.Sem Idealize.ShloMosaic.StableHlo Cert.RowScale
open Idealize.ShloMosaic.Pipeline (Dat)

variable {F : FTy → Type} [FloatOps F]
variable (m : (ℓ : Loc nD τ sig) → Buf (Elt F) ℓ) (ρ : Dev nD → PrngReg)

theorem zero_offsets : (![0, 0] : Fin 2 → Nat) = fun _ => 0 := funext fun a => by fin_cases a <;> rfl

/-- The body's one store, over any tile and any mask row: at (p, q) the tile's entry times the row's entry in column q. -/
theorem stored_apply (x0 : Vec F S512x2048 .f32) (x1 : Vec F S1x2048 .f32) (j : S512x2048.Idx) :
    out0_2 x0 x1 j = FloatOps.mulf (x0 j) (x1 (ix2 0 (j 1))) := by
  unfold out0_2
  rw [View.canon_unit_zero zero_offsets]
  simp only [View.ld_unit_zero (S := S512x2048) zero_offsets, View.ld_unit_zero (S := S1x2048) zero_offsets]
  unfold k0_pay1
  exact tile_apply x0 x1 _ _ _ j

/-- The printed index maps over the 64 points: the tile of `x` and the tile of the result are both tile `t` (block
    row `t`, block column 0), and the mask row is block (0, 0) throughout. -/
theorem index_maps : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is tile `t` of `flatScale` of the two flattened arrays as the region finds them. -/
theorem written_eq (c : Dev nD) (t : Fin cfg0.N) :
    (dats m 0 c).flushed 2 t
      = ((cfg0.win 2).blk t).view.read (Elt F) (flatScale (V m c main_v0) (V m c main_v1)) := by
  show (cfg0.win 2).cut (grid0.coords t) ((dats m 0 c).after 2 t) = _
  rw [after0_2]
  obtain ⟨e0, e1, e2, e3, e4, e5⟩ := index_maps t
  funext j
  show out0_2 (iblk m c 0 t) (iblk m c 1 t) j
    = flatScale (V m c main_v0) (V m c main_v1) (((cfg0.win 2).blk t).view.emb j)
  rw [stored_apply]
  unfold flatScale
  show FloatOps.mulf (V m c main_v0 (((cfg0.win 0).blk t).view.emb j)) (V m c main_v1 (((cfg0.win 1).blk t).view.emb (ix2 0 (j 1))))
    = FloatOps.mulf (V m c main_v0 (((cfg0.win 2).blk t).view.emb j)) (V m c main_v1 (ix2 0 ((((cfg0.win 2).blk t).view.emb j) 1)))
  have h0 : ((cfg0.win 0).blk t).view.emb j = ((cfg0.win 2).blk t).view.emb j := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 2048 + 1 * (j 1).val = win0_2.index t (1 : Fin 2) * 2048 + 1 * (j 1).val; omega
  have h1 : ((cfg0.win 1).blk t).view.emb (ix2 0 (j 1)) = ix2 0 ((((cfg0.win 2).blk t).view.emb j) 1) := by
    funext a; apply Fin.ext
    match a with
    | ⟨0, _⟩ => show win0_1.index t (0 : Fin 2) * 1 + 1 * 0 = 0; omega
    | ⟨1, _⟩ => show win0_1.index t (1 : Fin 2) * 2048 + 1 * (j 1).val = win0_2.index t (1 : Fin 2) * 2048 + 1 * (j 1).val; omega
  rw [h0, h1]
  rfl

/-- An index of the flat result is in point `t`'s tile iff each coordinate is in the tile's range on its axis. -/
theorem mem_tile (t : Fin cfg0.N) (i : S32768x2048.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v2).slice (win0_2.rect t)).set ↔ _
  rw [View.set_slice_whole, Rect.mem_set_unit]
  exact Iff.rfl

/-- Every index (r, d) of the flat result is in the tile of point `r / 512`, which is written back. -/
theorem covered (i : S32768x2048.Idx) :
    ∃ t : Fin cfg0.N, (cfg0.win 2).flush t = true ∧ i ∈ ((cfg0.win 2).blk t).view.set := by
  have hi0 : (i 0).val < 32768 := (i 0).isLt
  have hi1 : (i 1).val < 2048 := (i 1).isLt
  let t : Fin cfg0.N := ⟨(i 0).val / 512, by show (i 0).val / 512 < 64; omega⟩
  obtain ⟨e0, e1, e2, e3, e4, e5⟩ := index_maps t
  have e4' : win0_2.index t (0 : Fin 2) = (i 0).val / 512 := e4
  refine ⟨t, flush0_2 t, ?_⟩
  rw [mem_tile]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 2048 ≤ (i 1).val ∧ (i 1).val < win0_2.index t (1 : Fin 2) * 2048 + 2048; omega

/-- The flat result after the region: `flatScale` of the two flattened arrays. -/
theorem flat_result (c : Dev nD) :
    (dats m 0 c).arrAt 2 cfg0.N = flatScale (V m c main_v0) (V m c main_v1) :=
  (dats m 0 c).arrAt_eq_of_cover 2 (flatScale (V m c main_v0) (V m c main_v1)) (fun t _ => written_eq m c t) covered

/-- The region finds `x` flattened to [32768, 2048] … -/
theorem V_flat_x (c : Dev nD) :
    (V m c main_v0 : S32768x2048.Idx → Elt F .f32)
      = shapeCast S32768x2048 (m ((c : Thread nD τ).loc main_arg0)) shapeCasts_S8x4096x2048_S32768x2048 := by
  show StableHlo.after hostOps0 (fun b => m (c, b)) (Proc.devRef .tc main_v0) = _
  after_results
  rfl

/-- … and `mask` as one row [1, 2048]. -/
theorem V_mask_row (c : Dev nD) :
    (V m c main_v1 : S1x2048.Idx → Elt F .f32)
      = shapeCast S1x2048 (m ((c : Thread nD τ).loc main_arg1)) shapeCasts_S2048_S1x2048 := by
  show StableHlo.after hostOps0 (fun b => m (c, b)) (Proc.devRef .tc main_v1) = _
  after_results
  rfl

/-- The reshape after the region reads the flat result back as [8, 4096, 2048]: the column scaling of the arguments. -/
theorem tail_result (c : Dev nD) :
    Pipeline.afterTail₀ cfgs (dats m) 0 (V0 m) [hostOps1] c main_v3
      = colScale (m ((c : Thread nD τ).loc main_arg0)) (m ((c : Thread nD τ).loc main_arg1)) := by
  unfold Pipeline.afterTail₀
  show StableHlo.after hostOps1 _ (Proc.devRef .tc main_v3) = _
  after_results
  rw [show Pipeline.withArrays (cfgs 0).spec c (V0 m c) (fun w => (dats m 0 c).arrAt w (cfgs 0).N) (Proc.devRef .tc main_v2)
      = (dats m 0 c).arrAt 2 cfg0.N from Pipeline.withArrays_arr spec0 launch0.win.arr_inj c _ _ 2,
    flat_result, V_flat_x, V_mask_row]
  exact unflatten_flatScale _ _ _ _ _

/-- The run, read: every weakly fair execution of the program terminates with its result at the column scaling of
    the two arguments, and the arguments unchanged. -/
theorem run : θ_run defs (onTc (τ := τ) (main (F := F))) ⟨m, fun _ => 0, ρ⟩ fun r => ∀ c : Dev nD,
      r.2.mem ((c.tc : Thread nD τ).loc main_v3) = colScale (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v3 (Pipeline.mem_restRefs_of main_v3 (by decide) (by decide))).trans (tail_result m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Scaled

end
-- ==== Proof.lean ====
/-
  A dropout mask applied along the feature axis: for `x` over [8, 4096, 2048] and `mask` over [2048] both programs
  compute `out (b, s, d) = x (b, s, d) · mask d`.

  The kernel flattens `x` to [32768, 2048] and `mask` to one row, multiplies 64 tiles of 512 rows by that row broadcast
  down the rows, and reads the flat product back as [8, 4096, 2048]; the reference broadcasts `mask` to the shape of `x`
  and multiplies once. The reshapes keep the row-major position, the tiles cover the flat array, and each entry is one
  product of the same two numbers on both sides, so the results agree entry by entry for any inputs at all: no algebraic
  law is used and finiteness of the inputs is never needed.

  The three frames are the generated ones (the reference's frame is its run with the result dropped); the idealization
  rewrote no operation, so it preserves the kernel trivially.
-/
import proofs.«101053_j17540646437457_1_alg».proof.Defs
import proofs.«101053_j17540646437457_1_alg».proof.Proof.Gen.Kernel
import proofs.«101053_j17540646437457_1_alg».proof.Proof.Gen.Kernel.Skeleton
import proofs.«101053_j17540646437457_1_alg».proof.Proof.Gen.Kernel.Launch
import proofs.«101053_j17540646437457_1_alg».proof.Proof.Gen.Kernel.Points
import proofs.«101053_j17540646437457_1_alg».proof.Proof.Gen.Kernel.Frame
import proofs.«101053_j17540646437457_1_alg».proof.Proof.Gen.KernelIdeal
import proofs.«101053_j17540646437457_1_alg».proof.Proof.Gen.KernelIdeal.Skeleton
import proofs.«101053_j17540646437457_1_alg».proof.Proof.Gen.KernelIdeal.Launch
import proofs.«101053_j17540646437457_1_alg».proof.Proof.Gen.KernelIdeal.Points
import proofs.«101053_j17540646437457_1_alg».proof.Proof.Gen.KernelIdeal.Frame
import proofs.«101053_j17540646437457_1_alg».proof.Proof.Gen.ReferenceIdeal
import proofs.«101053_j17540646437457_1_alg».proof.Proof.Gen.ReferenceIdeal.Run
import proofs.«101053_j17540646437457_1_alg».proof.Proof.Gen.ReferenceIdeal.Read
import proofs.«101053_j17540646437457_1_alg».proof.Proof.Gen.Pre_finite_inputs
import proofs.«101053_j17540646437457_1_alg».proof.Proof.RowScale
import proofs.«101053_j17540646437457_1_alg».proof.Proof.Reference
import proofs.«101053_j17540646437457_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the column scaling of the arguments: the kernel by its tiles over the flat layout, the
    reference by its broadcast product; the arguments agree, so the results do. -/
theorem algebraic : Cert.algebraic_KernelIdeal_ReferenceIdeal := by
  intro m ρ m' ρ' _ hagree
  refine ⟨_, Cert.KernelIdeal.Scaled.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
